-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x256 : Shape := ⟨2, ![256, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x10000 .f32) (main_arg1 : FVec F S10000x256 .f32) (main_arg2 : FVec F S256x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x10000 : Shape := ⟨2, ![10000, 10000]⟩
abbrev S10000x256 : Shape := ⟨2, ![10000, 256]⟩
abbrev S256x256 : Shape := ⟨2, ![256, 256]⟩
abbrev S200x10000 : Shape := ⟨2, ![200, 10000]⟩
abbrev S200x256 : Shape := ⟨2, ![200, 256]⟩

abbrev nBuf : Space → Nat
  | .hbm => 4
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S200x10000, .f32⟩
  | .local _ .vmem, ⟨3, _⟩ => ⟨S200x10000, .f32⟩
  | .local _ .vmem, ⟨4, _⟩ => ⟨S200x256, .f32⟩
  | .local _ .vmem, ⟨5, _⟩ => ⟨S200x256, .f32⟩
  | .local _ .vmem, ⟨6, _⟩ => ⟨S10000x256, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  inb_S200x10000_S200x10000_0_0 : ∀ a, (![0, 0] : Fin 2 → Nat) a + S200x10000.size a ≤ S200x10000.size a
  h_S200x10000 : 0 < S200x10000.numel
  inb_S200x256_S200x256_0_0 : ∀ a, (![0, 0] : Fin 2 → Nat) a + S200x256.size a ≤ S200x256.size a
  h_S200x256 : 0 < S200x256.numel
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg1) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x256 : Shape := ⟨2, ![256, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S10000x256, .f32⟩
  | .hbm, ⟨4, _⟩ => ⟨S10000x256, .f32⟩
  | .hbm, ⟨5, _⟩ => ⟨S_, .f32⟩
  | .hbm, ⟨6, _⟩ => ⟨S_, .f32⟩
  | .hbm, ⟨7, _⟩ => ⟨S10000x256, .f32⟩
  | .hbm, ⟨8, _⟩ => ⟨S10000x256, .i1⟩
  | .hbm, ⟨9, _⟩ => ⟨S_, .f32⟩
  | .hbm, ⟨10, _⟩ => ⟨S10000x256, .f32⟩
  | .hbm, ⟨11, _⟩ => ⟨S10000x256, .f32⟩
  | .hbm, ⟨12, _⟩ => ⟨S10000x256, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.RefRun.lean ====
/-
  The reference program's run, read back.

  @main is two matrix products, `S = X·W` and `O = A·S`, a scalar constant `c`, and the outlined
  `leaky_relu(O, c)`, whose body in turn calls the outlined `where`: in all ten host operations, the two
  callees' operations listed at their call sites over the calls' own buffers. Every weakly fair execution
  of that straight line terminates with the result buffer at `select (O ≥ 0) O (c·O)`, a pure term of the
  three argument arrays, and with the arguments unchanged.
-/
import proofs.«154003_g28767690949396_cont_9to1_1480_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result as one term of the argument arrays: `O = A·(X·W)`, then `O` where it is at least zero and
    `c·O` elsewhere, `c` the scalar constant broadcast over the result's shape. -/
def out (A : (⟨S10000x10000, .f32⟩ : BufTy).Contents (Elt F)) (X : (⟨S10000x256, .f32⟩ : BufTy).Contents (Elt F))
    (W : (⟨S256x256, .f32⟩ : BufTy).Contents (Elt F)) : (⟨S10000x256, .f32⟩ : BufTy).Contents (Elt F) :=
  select
    (cmpf .oge
      (Host.dotGeneral dot_S10000x10000_S10000x256_S10000x256_1_0_0_1_n_n none A
        (Host.dotGeneral dot_S10000x256_S256x256_S10000x256_1_0_0_1_n_n none X W))
      (broadcastInDim S10000x256 ![] bcast_S_S10000x256 (constant S_ .f32 0x00000000#32)))
    (Host.dotGeneral dot_S10000x10000_S10000x256_S10000x256_1_0_0_1_n_n none A
      (Host.dotGeneral dot_S10000x256_S256x256_S10000x256_1_0_0_1_n_n none X W))
    (mulf (broadcastInDim S10000x256 ![] bcast_S_S10000x256 (id (constant S_ .f32 0x3C23D70A#32)))
      (Host.dotGeneral dot_S10000x10000_S10000x256_S10000x256_1_0_0_1_n_n none A
        (Host.dotGeneral dot_S10000x256_S256x256_S10000x256_1_0_0_1_n_n none X W)))

/-- @main's operations in order, the two calls unfolded: the products, the constant, then `leaky_relu`'s six
    (zero, its broadcast, the comparison, the slope converted to its own type, its broadcast, the product) and
    `where`'s select. -/
abbrev ops : List (HloOp τ sig (Elt F)) :=
  [ binary main_arg1 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg0 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    nullary main_cst (constant S_ .f32 0x3C23D70A#32),
    TRef.nullary main_call0.cst (constant S_ .f32 0x00000000#32),
    TRef.unary main_call0.cst main_call0.v0 (broadcastInDim S10000x256 ![] bcast_S_S10000x256),
    TRef.binary (.of main_v1) main_call0.v0 main_call0.v1 (cmpf .oge),
    TRef.unary (.of main_cst) main_call0.v2 id,
    TRef.unary main_call0.v2 main_call0.v3 (broadcastInDim S10000x256 ![] bcast_S_S10000x256),
    TRef.binary main_call0.v3 (.of main_v1) main_call0.v4 mulf,
    TRef.ternary main_call0.v1 (.of main_v1) main_call0.v4 main_call0.call0.v0 select ]

/-- @main is that straight line: the callees' bodies unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., nullary_bufs_sub .., unary_bufs_sub .., binary_bufs_sub ..,
    unary_bufs_sub .., unary_bufs_sub .., binary_bufs_sub .., ternary_bufs_sub ..⟩

/-- The fold of the ten operations at the result buffer is `out` of the arguments. -/
theorem out_eq (V : Valuation τ sig (Elt F)) :
    after ops V (main_v2 : DevRef τ sig)
      = out (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-- On every device, from any memory with zero counters: every weakly fair execution of @main terminates with the
    result at `out` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.KernelValue.lean ====
/-
  What the kernel's buffers hold after each grid point, as values.

  The kernel runs 50 grid points. At the first it computes the projection `S = X·W` (a product into a zero
  accumulator) and parks it in a scratch buffer that no later point writes; at every point `t` it loads the
  `t`-th block `A_t` of 200 rows of the adjacency matrix and that scratch, and stores into its output block
  `leaky(A_t · scratch)`. So after EVERY point the scratch holds `S` (by induction on the point: stored at the
  first, untouched afterwards), and the output block of point `t` is `leaky(A_t · S)`.

  The windows of `X` and `W` have one block, the whole array; the window of `A` has the 50 row blocks.
-/
import proofs.«154003_g28767690949396_cont_9to1_1480_4_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Gcn

open Cert.KernelIdeal Cert.KernelIdeal.Gen

variable {F : FTy → Type} [FloatOps F]

theorem hz : (![0, 0] : Fin 2 → Nat) = fun _ => 0 := funext fun a => by fin_cases a <;> rfl

/-! ## The two control cases' stores, read back -/

/-- At the first point the scratch is stored whole with the product of the two loaded blocks. -/
theorem scratch_A (c : Dev nD) (i : grid0.Coords) (a1 : Memref sig .tc .vmem S10000x256 .f32) (h1 : a1.IsWhole)
    (a2 : Memref sig .tc .vmem S256x256 .f32) (h2 : a2.IsWhole) (a3 : Memref sig .tc .vmem S200x10000 .f32) (h3 : a3.IsWhole)
    (a4 : Memref sig .tc .vmem S200x256 .f32) (h4 : a4.IsWhole) (a5 : Memref sig .tc .vmem S10000x256 .f32) (h5 : a5.IsWhole)
    (hc : cond0_0 i) (x0 : Vec F S10000x256 .f32) (x1 : Vec F S256x256 .f32) (x2 : Vec F S200x10000 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, View.ld_unit_zero (S := S10000x256) hz,
    View.ld_unit_zero (S := S256x256) hz]

/-- At the first point the output block is the rectified product of the adjacency block with the scratch the
    point has just stored (the load after the store reads the stored value back). -/
theorem out_A (c : Dev nD) (i : grid0.Coords) (a1 : Memref sig .tc .vmem S10000x256 .f32) (h1 : a1.IsWhole)
    (a2 : Memref sig .tc .vmem S256x256 .f32) (h2 : a2.IsWhole) (a3 : Memref sig .tc .vmem S200x10000 .f32) (h3 : a3.IsWhole)
    (a4 : Memref sig .tc .vmem S200x256 .f32) (h4 : a4.IsWhole) (a5 : Memref sig .tc .vmem S10000x256 .f32) (h5 : a5.IsWhole)
    (hc : cond0_0 i) (x0 : Vec F S10000x256 .f32) (x1 : Vec F S256x256 .f32) (x2 : Vec F S200x10000 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.readCov_unit_zero (S := S10000x256) _ hz,
    View.ld_unit_zero (S := S10000x256) hz, View.ld_unit_zero (S := S256x256) hz, View.ld_unit_zero (S := S200x10000) hz]

/-- At a later point the output block is the rectified product of the adjacency block with what the scratch held. -/
theorem out_B (c : Dev nD) (i : grid0.Coords) (a1 : Memref sig .tc .vmem S10000x256 .f32) (h1 : a1.IsWhole)
    (a2 : Memref sig .tc .vmem S256x256 .f32) (h2 : a2.IsWhole) (a3 : Memref sig .tc .vmem S200x10000 .f32) (h3 : a3.IsWhole)
    (a4 : Memref sig .tc .vmem S200x256 .f32) (h4 : a4.IsWhole) (a5 : Memref sig .tc .vmem S10000x256 .f32) (h5 : a5.IsWhole)
    (hc : ¬cond0_0 i) (x0 : Vec F S10000x256 .f32) (x1 : Vec F S256x256 .f32) (x2 : Vec F S200x10000 .f32) (xs : Vec F S10000x256 .f32) :
    out0_B_3 c i a1 h1 a2 h2 a3 h3 a4 h4 a5 h5 hc x0 x1 x2 xs = k0_pay2 x2 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz]
  simp only [View.readAt_eq_ld, h3.read_unread, h5.read_unread,
    View.ld_unit_zero (S := S10000x256) hz, View.ld_unit_zero (S := S200x10000) hz]

/-! ## The arrays and the blocks, at their literal types -/

variable (m : (ℓ : Loc nD τ sig) → Buf (Elt F) ℓ)

/-- The adjacency matrix, the node features and the weights, as the region finds them. -/
abbrev arrA (c : Dev nD) : Vec F S10000x10000 .f32 := V m c main_arg0
abbrev arrX (c : Dev nD) : Vec F S10000x256 .f32 := V m c main_arg1
abbrev arrW (c : Dev nD) : Vec F S256x256 .f32 := V m c main_arg2
/-- The blocks the three input windows hold at point `t`. -/
abbrev blkX (c : Dev nD) (t : Fin cfg0.N) : Vec F S10000x256 .f32 := iblk m c 0 t
abbrev blkW (c : Dev nD) (t : Fin cfg0.N) : Vec F S256x256 .f32 := iblk m c 1 t
abbrev blkA (c : Dev nD) (t : Fin cfg0.N) : Vec F S200x10000 .f32 := iblk m c 2 t

/-- The printed index maps over the grid: the features' and weights' one block is block (0, 0); the adjacency's
    and the output's block at point `t` is block (t, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block is the whole array, at every point. -/
theorem blkX_eq (c : Dev nD) (t : Fin cfg0.N) : blkX m c t = arrX m c := by
  obtain ⟨e0, e1, -⟩ := idx_facts t
  funext j
  show V m c main_arg1 (((cfg0.win 0).blk t).view.emb j) = V m c main_arg1 j
  refine congrArg (V m c main_arg1) (funext fun a => Fin.ext ?_)
  match a with
  | ⟨0, _⟩ => show win0_0.index t (0 : Fin 2) * 10000 + 1 * (j 0).val = (j 0).val; omega
  | ⟨1, _⟩ => show win0_0.index t (1 : Fin 2) * 256 + 1 * (j 1).val = (j 1).val; omega

/-- The weights' block is the whole array, at every point. -/
theorem blkW_eq (c : Dev nD) (t : Fin cfg0.N) : blkW m c t = arrW m c := by
  obtain ⟨-, -, e0, e1, -⟩ := idx_facts t
  funext j
  show V m c main_arg2 (((cfg0.win 1).blk t).view.emb j) = V m c main_arg2 j
  refine congrArg (V m c main_arg2) (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- The adjacency's block at point `t` is rows `200·t, …, 200·t + 199` of the matrix, all columns. -/
theorem blkA_apply (c : Dev nD) (t : Fin cfg0.N) (p : Fin 200) (k : Fin 10000) (r : Fin 10000) (hr : r.val = 200 * t.val + p.val) :
    blkA m c t (ValueIdx.ix2 p k) = arrA m c (ValueIdx.ix2 r k) := by
  obtain ⟨-, -, -, -, e0, e1, -⟩ := idx_facts t
  show V m c main_arg0 (((cfg0.win 2).blk t).view.emb (ValueIdx.ix2 p k)) = V m c main_arg0 (ValueIdx.ix2 r k)
  refine congrArg (V m c main_arg0) (funext fun a => Fin.ext ?_)
  match a with
  | ⟨0, _⟩ => show win0_2.index t (0 : Fin 2) * 200 + 1 * p.val = r.val; omega
  | ⟨1, _⟩ => show win0_2.index t (1 : Fin 2) * 10000 + 1 * k.val = k.val; omega

/-! ## After each point -/

/-- At a point of the first case: the scratch at the product of the features' and weights' blocks, the output
    block at the rectified product of the adjacency block with it. -/
theorem outs_A (c : Dev nD) (t : Fin cfg0.N) (h0 : t.val % 50 = 0) :
    outsAt0 m c t.val t.isLt
      = (k0_pay2 (blkA m c t) (k0_pay1 (blkX m c t) (blkW m c t)), k0_pay1 (blkX m c t) (blkW m c t)) := by
  rw [outsAt0_A m c t h0]
  exact congrArg₂ Prod.mk
    (out_A c (grid0.coords t) (ms0_0 t) (hs0_0 t) (ms0_1 t) (hs0_1 t) (ms0_2 t) (hs0_2 t) (ms0_3 t) (hs0_3 t) scM0_0
      (Memref.isWhole_whole _) ((hcond0_0 t).mpr h0) (iblk m c 0 t) (iblk m c 1 t) (iblk m c 2 t))
    (scratch_A c (grid0.coords t) (ms0_0 t) (hs0_0 t) (ms0_1 t) (hs0_1 t) (ms0_2 t) (hs0_2 t) (ms0_3 t) (hs0_3 t) scM0_0
      (Memref.isWhole_whole _) ((hcond0_0 t).mpr h0) (iblk m c 0 t) (iblk m c 1 t) (iblk m c 2 t))

/-- At a point of the other case: the scratch as the point before left it, the output block at the rectified
    product of the adjacency block with it. -/
theorem outs_B (c : Dev nD) (t : Fin cfg0.N) (h0 : ¬t.val % 50 = 0) :
    outsAt0 m c t.val t.isLt
      = (k0_pay2 (blkA m c t) (outsAt0 m c (t.val - 1) (Nat.lt_of_le_of_lt (Nat.sub_le _ _) t.isLt)).2,
          (outsAt0 m c (t.val - 1) (Nat.lt_of_le_of_lt (Nat.sub_le _ _) t.isLt)).2) := by
  rw [outsAt0_B m c t h0]
  exact congrArg₂ Prod.mk
    (out_B c (grid0.coords t) (ms0_0 t) (hs0_0 t) (ms0_1 t) (hs0_1 t) (ms0_2 t) (hs0_2 t) (ms0_3 t) (hs0_3 t) scM0_0
      (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2)
    rfl

/-- THE SCRATCH AFTER EVERY POINT is the projection `X·W` of the whole arrays: stored at the first point, kept by
    every later one. By induction on the point. -/
theorem scratch_eq (c : Dev nD) : ∀ (n : ℕ) (h : n < cfg0.N), (outsAt0 m c n h).2 = k0_pay1 (arrX m c) (arrW m c)
  | 0, h => by
    rw [outs_A m c ⟨0, h⟩ rfl]
    show k0_pay1 (blkX m c ⟨0, h⟩) (blkW m c ⟨0, h⟩) = _
    rw [blkX_eq, blkW_eq]
  | n + 1, h => by
    have hN : cfg0.N = 50 := N_0
    have hB : ¬(⟨n + 1, h⟩ : Fin cfg0.N).val % 50 = 0 := by dsimp only; omega
    rw [outs_B m c ⟨n + 1, h⟩ hB]
    exact scratch_eq c n _

/-- THE OUTPUT BLOCK AFTER POINT `t` is the rectified product of the adjacency's `t`-th row block with `X·W`. -/
theorem out_eq (c : Dev nD) (t : Fin cfg0.N) :
    (outsAt0 m c t.val t.isLt).1 = k0_pay2 (blkA m c t) (k0_pay1 (arrX m c) (arrW m c)) := by
  by_cases h0 : t.val % 50 = 0
  · rw [outs_A m c t h0]
    show k0_pay2 (blkA m c t) (k0_pay1 (blkX m c t) (blkW m c t)) = _
    rw [blkX_eq, blkW_eq]
  · rw [outs_B m c t h0]
    show k0_pay2 (blkA m c t) (outsAt0 m c (t.val - 1) _).2 = _
    rw [scratch_eq]

end Cert.KernelIdeal.Gcn

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowSelect.lean ====
/-
  Row blocks under a comparison with a constant and a select, at the exact instance.

  If `a` is the `t`-th row block of `A` (rows `B·t, …, B·t + B − 1`), then so is every entrywise
  function of it: an entry's comparison against a constant, a select between two entrywise results, and in
  particular the leaky rectifier `x ↦ x` where `x ≥ z`, `c·x` elsewhere. Together with the product
  lemma (row `r` of `L·R` needs row `r` of `L` only) this reads a kernel that computes
  `leaky(L_block · R)` block by block against the host's `leaky(L · R)`.
-/
import proofs.«154003_g28767690949396_cont_9to1_1480_4_alg».proof.Proof.LibRowBlock

noncomputable section

namespace Cert.RowBlock

open Idealize.ShloMosaic Idealize.ShloMosaic.ValueIdx

namespace IsRows

variable {N n B t : Nat}

/-- An entrywise comparison of row blocks is the row block of the comparison. -/
theorem cmp {φ : FTy} {A A' : FVec Ideal ⟨2, ![N, n]⟩ φ} {a a' : FVec Ideal ⟨2, ![B, n]⟩ φ}
    (H : IsRows B t A a) (H' : IsRows B t A' a') (p : CmpFPredicate) : IsRows B t (cmpf p A A') (cmpf p a a') := by
  intro q j r hr
  rw [cmpf_apply, cmpf_apply, H q j r hr, H' q j r hr]

/-- An entrywise select between row blocks, on a row block of conditions, is the row block of the select. -/
theorem sel {α : Type} {C : IVec ⟨2, ![N, n]⟩ 1} {c : IVec ⟨2, ![B, n]⟩ 1}
    {X Y : (⟨2, ![N, n]⟩ : Shape).Idx → α} {x y : (⟨2, ![B, n]⟩ : Shape).Idx → α}
    (HC : IsRows B t C c) (HX : IsRows B t X x) (HY : IsRows B t Y y) : IsRows B t (select C X Y) (select c x y) := by
  intro q j r hr
  rw [select_apply, select_apply, HC q j r hr, HX q j r hr, HY q j r hr]

/-- A scalar constant the host converts to its own type and then broadcasts: still the constant in every entry. -/
theorem splat_id (φ : FTy) (w : BitVec φ.bits) (h : (⟨0, ![]⟩ : Shape).BroadcastsInDim ⟨2, ![N, n]⟩ ![]) :
    IsRows B t (broadcastInDim ⟨2, ![N, n]⟩ ![] h (id (constant (F := Ideal) ⟨0, ![]⟩ φ w)))
      (broadcast ⟨2, ![B, n]⟩ (Scalar.ofBits (F := Ideal) φ w)) :=
  fun _ _ _ _ => rfl

/-- THE LEAKY RECTIFIER OF A PRODUCT, block against whole: with `O = L·R` on the host and `o = l·r` into a zero
    accumulator on a row block `l` of `L` (`r` and `R` the same matrix), `select (o ≥ z) o (c·o)` is the row block
    of `select (O ≥ z) O (c·O)`, `z` and `c` the same words on both sides. -/
theorem leaky_dot {K M : Nat} {L : FVec Ideal ⟨2, ![N, K]⟩ .f32} {l : FVec Ideal ⟨2, ![B, K]⟩ .f32} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R r : FVec Ideal ⟨2, ![K, M]⟩ .f32) (hR : ∀ k j, r (ix2 k j) = R (ix2 k j))
    (hb : (⟨0, ![]⟩ : Shape).BroadcastsInDim ⟨2, ![N, M]⟩ ![]) (z c : BitVec 32) :
    IsRows B t
      (select (cmpf .oge (Host.dotGeneral D none L R) (broadcastInDim ⟨2, ![N, M]⟩ ![] hb (constant (F := Ideal) ⟨0, ![]⟩ .f32 z)))
        (Host.dotGeneral D none L R)
        (mulf (broadcastInDim ⟨2, ![N, M]⟩ ![] hb (id (constant (F := Ideal) ⟨0, ![]⟩ .f32 c))) (Host.dotGeneral D none L R)))
      (select (cmpf .oge (matmul d none l r (constant ⟨2, ![B, M]⟩ .f32 0x00000000#32)) (broadcast ⟨2, ![B, M]⟩ (Scalar.ofBits (F := Ideal) .f32 z)))
        (matmul d none l r (constant ⟨2, ![B, M]⟩ .f32 0x00000000#32))
        (mulf (broadcast ⟨2, ![B, M]⟩ (Scalar.ofBits (F := Ideal) .f32 c)) (matmul d none l r (constant ⟨2, ![B, M]⟩ .f32 0x00000000#32)))) :=
  have HO := dot H D d hD hd R r hR
  sel (cmp HO (splat .f32 z hb) .oge) HO (mul (splat_id .f32 c hb) HO)

end IsRows

/-- A matrix is its own (only) row block of full height: the hypothesis a whole-matrix operand meets. -/
theorem isRows_self {α : Type} {N n : Nat} (A : (⟨2, ![N, n]⟩ : Shape).Idx → α) : IsRows N 0 A A := by
  intro p j r hr
  have e : r = p := Fin.ext (by omega)
  rw [e]

end Cert.RowBlock

end
-- ==== Proof.Bridge.lean ====
/-
  One row block of the result, on both sides.

  The host computes `O = A·(X·W)` and then `O` where `O ≥ 0`, `c·O` elsewhere. The kernel's payload for a block
  `a` of 200 rows of `A` is the same rectifier of `a·S`, where `S` is its own product `X·W` into a zero
  accumulator. At the exact instance both products are the plain sums `∑ₖ L(r,k)·R(k,j)`, the host's and the
  kernel's `X·W` agree entry by entry, and row `r` of `A·S` needs row `r` of `A` only: so the kernel's block
  is the row block of the host's result.
-/
import proofs.«154003_g28767690949396_cont_9to1_1480_4_alg».proof.Proof.RefRun
import proofs.«154003_g28767690949396_cont_9to1_1480_4_alg».proof.Proof.Gen.KernelIdeal.Skeleton
import proofs.«154003_g28767690949396_cont_9to1_1480_4_alg».proof.Proof.LibRowSelect

noncomputable section

namespace Cert.Bridge

open Idealize.ShloMosaic Idealize.ShloMosaic.ValueIdx Cert.RowBlock

/-- The kernel's projection `X·W` (a product into a zero accumulator, re-cast to its own shape) and the host's are
    equal entry by entry. -/
theorem support_apply (X : FVec Ideal Cert.KernelIdeal.S10000x256 .f32) (W : FVec Ideal Cert.KernelIdeal.S256x256 .f32)
    (k : Fin 10000) (j : Fin 256) :
    Cert.KernelIdeal.Gen.k0_pay1 (F := Ideal) X W (ix2 k j)
      = Host.dotGeneral (F := Ideal) Cert.ReferenceIdeal.dot_S10000x256_S256x256_S10000x256_1_0_0_1_n_n none X W (ix2 k j) := by
  unfold Cert.KernelIdeal.Gen.k0_pay1
  rw [shapeCast_self]
  exact IsRows.dot (isRows_self X) Cert.ReferenceIdeal.dot_S10000x256_S256x256_S10000x256_1_0_0_1_n_n
    Cert.KernelIdeal.dot_S10000x256_S256x256_S10000x256_1_0_0_1_n_n ⟨rfl, rfl, rfl, rfl, rfl, rfl⟩ ⟨rfl, rfl, rfl, rfl, rfl, rfl⟩
    W W (fun _ _ => rfl) k j k (by omega)

/-- THE KERNEL'S BLOCK IS THE ROW BLOCK OF THE HOST'S RESULT: for `a` rows `200·t, …` of `A`, the payload
    `leaky(a · (X·W))` is rows `200·t, …` of the host's `leaky(A · (X·W))`. -/
theorem block_rows {t : Nat} (A : FVec Ideal Cert.KernelIdeal.S10000x10000 .f32) (X : FVec Ideal Cert.KernelIdeal.S10000x256 .f32)
    (W : FVec Ideal Cert.KernelIdeal.S256x256 .f32) (a : FVec Ideal Cert.KernelIdeal.S200x10000 .f32) (H : IsRows 200 t A a) :
    IsRows 200 t (Cert.ReferenceIdeal.RefRun.out (F := Ideal) A X W)
      (Cert.KernelIdeal.Gen.k0_pay2 (F := Ideal) a (Cert.KernelIdeal.Gen.k0_pay1 (F := Ideal) X W)) := by
  unfold Cert.ReferenceIdeal.RefRun.out Cert.KernelIdeal.Gen.k0_pay2
  exact IsRows.leaky_dot H Cert.ReferenceIdeal.dot_S10000x10000_S10000x256_S10000x256_1_0_0_1_n_n
    Cert.KernelIdeal.dot_S200x10000_S10000x256_S200x256_1_0_0_1_n_n ⟨rfl, rfl, rfl, rfl, rfl, rfl⟩ ⟨rfl, rfl, rfl, rfl, rfl, rfl⟩
    (Host.dotGeneral (F := Ideal) Cert.ReferenceIdeal.dot_S10000x256_S256x256_S10000x256_1_0_0_1_n_n none X W)
    (Cert.KernelIdeal.Gen.k0_pay1 (F := Ideal) X W) (support_apply X W)
    Cert.ReferenceIdeal.Facts₀.bcast_S_S10000x256 0x00000000#32 0x3C23D70A#32

end Cert.Bridge

end
-- ==== Proof.KernelFinal.lean ====
/-
  The kernel's result array, at the exact instance: the host's `leaky(A·(X·W))` of the kernel's own arguments.

  Point `t` writes back its output block, rows `200·t, …, 200·t + 199` of the result array, and that block holds
  `leaky(A_t·(X·W))`, which is those rows of `leaky(A·(X·W))`. The 50 blocks tile the 10000 rows (row `r` is in
  block `r / 200`), so after the run the whole array is that one function of the three argument arrays.
-/
import proofs.«154003_g28767690949396_cont_9to1_1480_4_alg».proof.Proof.KernelValue
import proofs.«154003_g28767690949396_cont_9to1_1480_4_alg».proof.Proof.Bridge

noncomputable section

open Idealize.ShloMosaic Idealize.ShloMosaic.TcCoe Idealize.SL.Sem
open Idealize.ShloMosaic.Pipeline (Dat)

namespace Cert.KernelIdeal.Gcn

open Cert.KernelIdeal Cert.KernelIdeal.Gen Idealize.ShloMosaic.ValueIdx Cert.RowBlock

variable (m : (ℓ : Loc nD τ sig) → Buf (Elt Ideal) ℓ) (ρ : Dev nD → PrngReg)

/-- The result as the host spells it, of the arrays the kernel's region finds. -/
abbrev result (c : Dev nD) : Vec Ideal S10000x256 .f32 :=
  Cert.ReferenceIdeal.RefRun.out (F := Ideal) (arrA m c) (arrX m c) (arrW m c)

/-- The adjacency window's block at point `t` is the `t`-th block of 200 rows. -/
theorem blkA_rows (c : Dev nD) (t : Fin cfg0.N) : IsRows 200 t.val (arrA m c) (blkA m c t) :=
  fun p k r hr => blkA_apply m c t p k r hr

/-- WHAT POINT `t` WRITES BACK is block `t` of the result. -/
theorem flushed_eq (c : Dev nD) (t : Fin cfg0.N) :
    (dats m 0 c).flushed 3 t = ((cfg0.win 3).blk t).view.read (Elt Ideal) (result m c) := by
  rw [Cert.KernelIdeal.Value.flushed3, out_eq]
  obtain ⟨-, -, -, -, -, -, e0, e1⟩ := idx_facts t
  have hN : t.val < 50 := lt_of_lt_of_eq t.isLt N_0
  funext j
  obtain ⟨p, q, rfl⟩ : ∃ (p : Fin 200) (q : Fin 256), j = ix2 p q := ⟨j 0, j 1, eq_ix2 j⟩
  have hp : p.val < 200 := p.isLt
  show k0_pay2 (blkA m c t) (k0_pay1 (arrX m c) (arrW m c)) (ix2 p q) = result m c (((cfg0.win 3).blk t).view.emb (ix2 p q))
  have hemb : ((cfg0.win 3).blk t).view.emb (ix2 p q) = ix2 (⟨200 * t.val + p.val, by omega⟩ : Fin 10000) q := by
    funext a; apply Fin.ext
    match a with
    | ⟨0, _⟩ => show win0_3.index t (0 : Fin 2) * 200 + 1 * p.val = 200 * t.val + p.val; omega
    | ⟨1, _⟩ => show win0_3.index t (1 : Fin 2) * 256 + 1 * q.val = q.val; omega
  rw [hemb]
  exact Cert.Bridge.block_rows (arrA m c) (arrX m c) (arrW m c) (blkA m c t) (blkA_rows m c t) p q _ rfl

/-- An index of the result array is in point `t`'s block iff each coordinate is in the block's range on its axis. -/
theorem mem_blk (t : Fin cfg0.N) (i : S10000x256.Idx) :
    i ∈ ((cfg0.win 3).blk t).view.set ↔ ∀ a : Fin 2, win0_3.index t a * S200x256.size a ≤ (i a).val ∧ (i a).val < win0_3.index t a * S200x256.size a + S200x256.size a := by
  show i ∈ ((View.whole main_v0).slice (win0_3.rect t)).set ↔ _
  rw [View.set_slice_whole, Rect.mem_set_unit]
  exact Iff.rfl

/-- Every index of the result array is in the block of the point its row falls to. -/
theorem cover (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 50 := N_0
  obtain ⟨t, ht⟩ : ∃ t : Fin cfg0.N, t.val = (i 0).val / 200 := ⟨⟨(i 0).val / 200, by omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 256 ≤ (i 1).val ∧ (i 1).val < win0_3.index t (1 : Fin 2) * 256 + 256; omega

/-- THE RESULT ARRAY after the run. -/
theorem final (c : Dev nD) : (dats m 0 c).arrAt 3 cfg0.N = result m c :=
  (dats m 0 c).arrAt_eq_of_cover 3 (result m c) (fun t _ => flushed_eq m c t) cover

/-- The kernel's run, read: the result array at the host's term of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Gcn

end
-- ==== Proof.lean ====
/-
  A graph-convolution layer, `leaky(A·(X·W))` with slope `c`: the adjacency `A` (10000 × 10000), the node
  features `X` (10000 × 256), the weights `W` (256 × 256).

  The kernel walks 50 blocks of 200 rows of `A`. At the first grid point it computes `S = X·W` once into a
  scratch buffer that stays resident; at every point it multiplies its row block of `A` by that scratch and stores
  the rectified product as the corresponding 200 rows of the result. The reference computes `S = X·W`, `O = A·S`
  and `select (O ≥ 0) O (c·O)` on whole arrays.

  Over the extended reals both matrix products are the plain sums `∑ₖ L(r,k)·R(k,j)`, with no rounding and no
  order, so the kernel's `S` and the reference's agree entry by entry; row `r` of `A·S` depends on row `r`
  of `A` alone, and the rectifier acts entry by entry with the same two constants on both sides. Hence each
  block the kernel writes is the matching row block of the reference's result, and the 50 blocks tile it. No
  algebraic law beyond reading the products as sums is used, so the finiteness of the inputs is never opened.

  The three frames: the two kernel programs by their generated frame certificates, the reference by its run
  (ten host operations, the two outlined calls unfolded). The idealization rewrote nothing, so the
  sanctioned-idealization conjunct is trivial.
-/
import proofs.«154003_g28767690949396_cont_9to1_1480_4_alg».proof.Defs
import proofs.«154003_g28767690949396_cont_9to1_1480_4_alg».proof.Proof.Gen.Kernel
import proofs.«154003_g28767690949396_cont_9to1_1480_4_alg».proof.Proof.Gen.Kernel.Frame
import proofs.«154003_g28767690949396_cont_9to1_1480_4_alg».proof.Proof.Gen.KernelIdeal
import proofs.«154003_g28767690949396_cont_9to1_1480_4_alg».proof.Proof.Gen.KernelIdeal.Frame
import proofs.«154003_g28767690949396_cont_9to1_1480_4_alg».proof.Proof.Gen.ReferenceIdeal
import proofs.«154003_g28767690949396_cont_9to1_1480_4_alg».proof.Proof.Gen.Pre_finite_inputs
import proofs.«154003_g28767690949396_cont_9to1_1480_4_alg».proof.Proof.RefRun
import proofs.«154003_g28767690949396_cont_9to1_1480_4_alg».proof.Proof.KernelFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the result at the host's term `leaky(A·(X·W))` of arguments that agree. -/
theorem algebraic : Cert.algebraic_KernelIdeal_ReferenceIdeal := by
  intro m ρ m' ρ' _ hagree
  refine ⟨fun c => Cert.KernelIdeal.Gcn.result m c, Cert.KernelIdeal.Gcn.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
